-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S2 : Shape := ⟨1, ![2]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel
  bcast_S_S2 : S_.BroadcastsInDim S2 (![] : Fin 0 → Fin S2.rank)
  reducesTo_S2_S_d0 : S2.ReducesTo [0] S_

variable [Facts]

def fn {F : FTy → Type} [FloatOps F] (main_arg0 : FVec F S16777216 .f32) (main_arg1 : IVec S16777216 32) (main_arg2 : FVec F S2 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S2 .f32 := Host.absf main_arg2
  let main_cst_0 : FVec F S_ .f32 := constant S_ .f32 0x7F800000#32
  let main_v5 : FVec F S2 .f32 := broadcastInDim S2 ![] bcast_S_S2 main_cst_0
  let main_v6 : IVec S2 1 := cmpf .olt main_v4 main_v5
  let main_c_1 : IVec S_ 1 := constantI S_ 1 1#1
  let main_v7 : IVec S_ 1 := (fun x v => Host.reduce IntOp.andi x v reducesTo_S2_S_d0 h_S_) main_v6 main_c_1
  let main_v8 : IVec S_ 1 := andi main_v3 main_v7
  main_v8
-- ==== Kernel.lean ====
abbrev S16777216 : Shape := ⟨1, ![16777216]⟩
abbrev S2 : Shape := ⟨1, ![2]⟩
abbrev S131072x128 : Shape := ⟨2, ![131072, 128]⟩
abbrev S2x8x128 : Shape := ⟨3, ![2, 8, 128]⟩
abbrev S16384x128 : Shape := ⟨2, ![16384, 128]⟩
abbrev S1x8x128 : Shape := ⟨3, ![1, 8, 128]⟩
abbrev S8x128 : Shape := ⟨2, ![8, 128]⟩
abbrev S128 : Shape := ⟨1, ![128]⟩
abbrev S1x128 : Shape := ⟨2, ![1, 128]⟩
abbrev S_ : Shape := ⟨0, ![]⟩
abbrev S8 : Shape := ⟨1, ![8]⟩
abbrev S1 : Shape := ⟨1, ![1]⟩

abbrev nBuf : Space → Nat
  | .hbm => 51
  | .vmem => 7
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S2, .f32⟩
  | .hbm, ⟨3, _⟩ => ⟨S131072x128, .f32⟩
  | .hbm, ⟨4, _⟩ => ⟨S131072x128, .i32⟩
  | .hbm, ⟨5, _⟩ => ⟨S2x8x128, .f32⟩
  | .hbm, ⟨6, _⟩ => ⟨S_, .f32⟩
  | .hbm, ⟨7, _⟩ => ⟨S8x128, .f32⟩
  | .hbm, ⟨8, _⟩ => ⟨S_, .f32⟩
  | .hbm, ⟨9, _⟩ => ⟨S8, .f32⟩
  | .hbm, ⟨10, _⟩ => ⟨S1, .f32⟩
  | .hbm, ⟨11, _⟩ => ⟨S_, .f32⟩
  | .hbm, ⟨12, _⟩ => ⟨S1, .f32⟩
  | .hbm, ⟨13, _⟩ => ⟨S_, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S_, .f32⟩
  | .hbm, ⟨22, _⟩ => ⟨S1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1, .f32⟩
  | .hbm, ⟨35, _⟩ => ⟨S_, .f32⟩
  | .hbm, ⟨36, _⟩ => ⟨S_, .f32⟩
  | .hbm, ⟨37, _⟩ => ⟨S1, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S16384x128, .f32⟩
  | .local _ .vmem, ⟨1, _⟩ => ⟨S16384x128, .f32⟩
  | .local _ .vmem, ⟨2, _⟩ => ⟨S16384x128, .i32⟩
  | .local _ .vmem, ⟨3, _⟩ => ⟨S16384x128, .i32⟩
  | .local _ .vmem, ⟨4, _⟩ => ⟨S1x8x128, .f32⟩
  | .local _ .vmem, ⟨5, _⟩ => ⟨S1x8x128, .f32⟩
  | .local _ .vmem, ⟨6, _⟩ => ⟨S8x128, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v46 : BitVec 1 := Scalar.cmpi .eq arg1 c3_i32
  let v47 : BitVec 32 := Scalar.extui v46
  let c0_i32_20 : BitVec 32 := 0#32
  let v48 : BitVec 1 := Scalar.cmpi .ne v47 c0_i32_20
  v48

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16777216_S131072x128 : S16777216.ShapeCasts S131072x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  reduces_S16384x128_S128 : S16384x128.Reduces [0] S128
  shapeCasts_S128_S1x128 : S128.ShapeCasts S1x128
  concatenates_S1x128_S1x128_S1x128_S1x128_S1x128_S1x128_S1x128_S1x128_S8x128_d0 : Shape.Concatenates [S1x128, S1x128, S1x128, S1x128, S1x128, S1x128, S1x128, S1x128] S8x128 0
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S2x8x128_S8x128_d0 : S2x8x128.ReducesTo [0] S8x128
  h_S_ : 0 < S_.numel
  reducesTo_S8x128_S8_d1 : S8x128.ReducesTo [1] S8
  slices_S8_S1_0 : S8.Slices ![0] S1
  shapeCasts_S1_S_ : S1.ShapeCasts S_
  slices_S8_S1_1 : S8.Slices ![1] S1
  slices_S8_S1_2 : S8.Slices ![2] S1
  slices_S8_S1_3 : S8.Slices ![3] S1
  slices_S8_S1_4 : S8.Slices ![4] S1
  slices_S8_S1_5 : S8.Slices ![5] S1
  slices_S8_S1_6 : S8.Slices ![6] S1
  slices_S2_S1_0 : S2.Slices ![0] S1
  slices_S2_S1_1 : S2.Slices ![1] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S131072x128.size a
  hwx0_0 : ∀ i : grid0.Coords, EltTy.bits .f32 = 32 ∨ (Rect.block (s := S131072x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S131072x128.size a
  hwx0_1 : ∀ i : grid0.Coords, EltTy.bits .i32 = 32 ∨ (Rect.block (s := S131072x128) S16384x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16384x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16777216 : Shape := ⟨1, ![16777216]⟩
abbrev S2 : Shape := ⟨1, ![2]⟩
abbrev S_ : Shape := ⟨0, ![]⟩
abbrev S1 : Shape := ⟨1, ![1]⟩

abbrev nBuf : Space → Nat
  | .hbm => 77
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S2, .f32⟩
  | .hbm, ⟨3, _⟩ => ⟨S16777216, .f32⟩
  | .hbm, ⟨4, _⟩ => ⟨S_, .f32⟩
  | .hbm, ⟨5, _⟩ => ⟨S16777216, .f32⟩
  | .hbm, ⟨6, _⟩ => ⟨S16777216, .f32⟩
  | .hbm, ⟨7, _⟩ => ⟨S16777216, .f32⟩
  | .hbm, ⟨8, _⟩ => ⟨S_, .f32⟩
  | .hbm, ⟨9, _⟩ => ⟨S16777216, .f32⟩
  | .hbm, ⟨10, _⟩ => ⟨S16777216, .f32⟩
  | .hbm, ⟨11, _⟩ => ⟨S16777216, .f32⟩
  | .hbm, ⟨12, _⟩ => ⟨S_, .f32⟩
  | .hbm, ⟨13, _⟩ => ⟨S16777216, .f32⟩
  | .hbm, ⟨14, _⟩ => ⟨S16777216, .f32⟩
  | .hbm, ⟨15, _⟩ => ⟨S16777216, .f32⟩
  | .hbm, ⟨16, _⟩ => ⟨S16777216, .f32⟩
  | .hbm, ⟨17, _⟩ => ⟨S16777216, .f32⟩
  | .hbm, ⟨18, _⟩ => ⟨S_, .f32⟩
  | .hbm, ⟨19, _⟩ => ⟨S16777216, .f32⟩
  | .hbm, ⟨20, _⟩ => ⟨S16777216, .f32⟩
  | .hbm, ⟨21, _⟩ => ⟨S_, .f32⟩
  | .hbm, ⟨22, _⟩ => ⟨S16777216, .f32⟩
  | .hbm, ⟨23, _⟩ => ⟨S16777216, .f32⟩
  | .hbm, ⟨24, _⟩ => ⟨S16777216, .f32⟩
  | .hbm, ⟨25, _⟩ => ⟨S16777216, .f32⟩
  | .hbm, ⟨26, _⟩ => ⟨S_, .f32⟩
  | .hbm, ⟨27, _⟩ => ⟨S16777216, .f32⟩
  | .hbm, ⟨28, _⟩ => ⟨S16777216, .f32⟩
  | .hbm, ⟨29, _⟩ => ⟨S_, .f32⟩
  | .hbm, ⟨30, _⟩ => ⟨S16777216, .f32⟩
  | .hbm, ⟨31, _⟩ => ⟨S16777216, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S16777216, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S16777216, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S16777216, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S16777216, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1, .f32⟩
  | .hbm, ⟨61, _⟩ => ⟨S_, .f32⟩
  | .hbm, ⟨62, _⟩ => ⟨S_, .f32⟩
  | .hbm, ⟨63, _⟩ => ⟨S1, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S1, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_v24 : Ref sig .tc := ⟨.hbm, 37, rfl⟩
abbrev main_cst_9 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_cst_11 : Ref sig .tc := ⟨.hbm, 42, rfl⟩
abbrev main_v27 : Ref sig .tc := ⟨.hbm, 43, rfl⟩
abbrev main_v28 : Ref sig .tc := ⟨.hbm, 44, rfl⟩
abbrev main_cst_12 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_13 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_14 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_15 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_cst_17 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  reducesTo_S16777216_S_d0 : S16777216.ReducesTo [0] S_
  h_S_ : 0 < S_.numel
  slices_S2_S1_0 : S2.Slices ![0] S1
  shapeCasts_S1_S_ : S1.ShapeCasts S_
  slices_S2_S1_1 : S2.Slices ![1] S1

variable [Facts₀]

class Facts : Prop extends Facts₀ where

variable [Facts]
-- ==== Proof.Pieces.lean ====
import proofs.«135766_j37366215475814_1_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)

namespace Cert.KernelIdeal.Val
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One grid point's update of the accumulator: the eight rows of lane sums of the point's two blocks, stacked,
    added to what the accumulator held. -/
def step (x0 : Vec F S16384x128 .f32) (x1 : Vec F S16384x128 .i32) (xs : Vec F S8x128 .f32) : FVec F S8x128 .f32 :=
  k0_pay1 (k0_pay10 x1) (k0_pay11 x1) (k0_pay12 x1) (k0_pay13 x0 x1) (k0_pay14 x0 x1) (k0_pay15 x0 x1) (k0_pay16 x0 x1) xs

/-- A point that neither resets nor writes back leaves the accumulator updated once. -/
theorem sout_B (c : Dev nD) (i : grid0.Coords) (a2 : Memref sig .tc .vmem S16384x128 .f32) (h2 : a2.IsWhole) (a3 : Memref sig .tc .vmem S16384x128 .i32) (h3 : a3.IsWhole) (a4 : Memref sig .tc .vmem S1x8x128 .f32) (h4 : a4.IsWhole) (a5 : Memref sig .tc .vmem S8x128 .f32) (h5 : a5.IsWhole) (hc0 : ¬cond0_0 i) (hc1 : ¬cond0_1 i)
    (x0 : Vec F S16384x128 .f32) (x1 : Vec F S16384x128 .i32) (xs0 : Vec F S8x128 .f32) :
    sout0_B_0 c i a2 h2 a3 h3 a4 h4 a5 h5 hc0 hc1 x0 x1 xs0 = step x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz2]
  simp only [View.readAt_eq_ld, h2.read_unread, h3.read_unread, h5.read_unread, View.ld_unit_zero (S := S16384x128) hz2, View.ld_unit_zero (S := S8x128) hz2]
  rfl

/-- The last point of a half updates the accumulator the same way; -/
theorem sout_C (c : Dev nD) (i : grid0.Coords) (a2 : Memref sig .tc .vmem S16384x128 .f32) (h2 : a2.IsWhole) (a3 : Memref sig .tc .vmem S16384x128 .i32) (h3 : a3.IsWhole) (a4 : Memref sig .tc .vmem S1x8x128 .f32) (h4 : a4.IsWhole) (a5 : Memref sig .tc .vmem S8x128 .f32) (h5 : a5.IsWhole) (hc0 : ¬cond0_0 i) (hc1 : cond0_1 i)
    (x0 : Vec F S16384x128 .f32) (x1 : Vec F S16384x128 .i32) (xs0 : Vec F S8x128 .f32) :
    sout0_C_0 c i a2 h2 a3 h3 a4 h4 a5 h5 hc0 hc1 x0 x1 xs0 = step x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread, View.ld_unit_zero (S := S16384x128) hz2, View.ld_unit_zero (S := S8x128) hz2]
  rfl

/-- and copies the updated accumulator, with a leading unit axis, to the output block. -/
theorem out_C (c : Dev nD) (i : grid0.Coords) (a2 : Memref sig .tc .vmem S16384x128 .f32) (h2 : a2.IsWhole) (a3 : Memref sig .tc .vmem S16384x128 .i32) (h3 : a3.IsWhole) (a4 : Memref sig .tc .vmem S1x8x128 .f32) (h4 : a4.IsWhole) (a5 : Memref sig .tc .vmem S8x128 .f32) (h5 : a5.IsWhole) (hc0 : ¬cond0_0 i) (hc1 : cond0_1 i)
    (x0 : Vec F S16384x128 .f32) (x1 : Vec F S16384x128 .i32) (xs0 : Vec F S8x128 .f32) :
    out0_C_2 c i a2 h2 a3 h3 a4 h4 a5 h5 hc0 hc1 x0 x1 xs0 = k0_pay2 (step x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3]
  simp only [View.readAt_eq_ld, h2.read_unread, h3.read_unread, h5.read_unread, View.ld_unit_zero (S := S16384x128) hz2, View.ld_unit_zero (S := S8x128) hz2, View.readCov_unit_zero (S := S8x128) _ hz2]
  rfl

/-- The first point of a half stores zeros first, so it leaves the update of the zero accumulator. -/
theorem sout_A (c : Dev nD) (i : grid0.Coords) (a2 : Memref sig .tc .vmem S16384x128 .f32) (h2 : a2.IsWhole) (a3 : Memref sig .tc .vmem S16384x128 .i32) (h3 : a3.IsWhole) (a4 : Memref sig .tc .vmem S1x8x128 .f32) (h4 : a4.IsWhole) (a5 : Memref sig .tc .vmem S8x128 .f32) (h5 : a5.IsWhole) (hc0 : cond0_0 i) (hc1 : ¬cond0_1 i)
    (x0 : Vec F S16384x128 .f32) (x1 : Vec F S16384x128 .i32) :
    sout0_A_0 c i a2 h2 a3 h3 a4 h4 a5 h5 hc0 hc1 x0 x1 = step x0 x1 (k0_pay3 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S8x128) hz2, View.readCov_unit_zero (S := S8x128) _ hz2]
  simp only [View.readAt_eq_ld, h2.read_unread, h3.read_unread, h5.read_unread, View.ld_unit_zero (S := S16384x128) hz2, View.ld_unit_zero (S := S8x128) hz2]
  rfl

end Cert.KernelIdeal.Val
end
-- ==== Proof.Accum.lean ====
/-
  What the accumulator holds after each grid point, and what the output block holds at the last point of each half.
  The grid's eight points run in order; a point whose inner coordinate is 0 (points 0 and 4) restarts the accumulator
  from zeros, every point adds its stacked lane sums, and the points whose inner coordinate is 3 (points 3 and 7) copy
  the accumulator to the output block. So the accumulator after point n is a fold from the last restart.
-/
import proofs.«135766_j37366215475814_1_alg».proof.Proof.Pieces

noncomputable section
open Idealize.ShloMosaic Idealize.ShloMosaic.TcCoe Idealize.SL.Sem
open Idealize.ShloMosaic.Pipeline (Dat)

namespace Cert.KernelIdeal.Val
open Cert.KernelIdeal Cert.KernelIdeal.Gen

variable {F : FTy → Type} [FloatOps F]
variable (m : (ℓ : Loc nD τ sig) → Buf (Elt F) ℓ)

/-- The two input blocks of a point, under their literal types. -/
abbrev yblk (c : Dev nD) (t : Fin cfg0.N) : Vec F S16384x128 .f32 := iblk m c 0 t
abbrev tblk (c : Dev nD) (t : Fin cfg0.N) : Vec F S16384x128 .i32 := iblk m c 1 t

/-- The accumulator after point `n`: restarted from zeros where `n` is a multiple of 4, else continued. -/
def accAt (c : Dev nD) : (n : ℕ) → n < cfg0.N → Vec F S8x128 .f32
  | 0, h => step (yblk m c ⟨0, h⟩) (tblk m c ⟨0, h⟩) (k0_pay3 (F := F))
  | n + 1, h =>
    if (n + 1) % 4 = 0 then step (yblk m c ⟨n + 1, h⟩) (tblk m c ⟨n + 1, h⟩) (k0_pay3 (F := F))
    else step (yblk m c ⟨n + 1, h⟩) (tblk m c ⟨n + 1, h⟩) (accAt c n (Nat.lt_of_succ_lt h))

theorem accAt_reset (c : Dev nD) (n : ℕ) (h : n < cfg0.N) (h0 : n % 4 = 0) :
    accAt m c n h = step (yblk m c ⟨n, h⟩) (tblk m c ⟨n, h⟩) (k0_pay3 (F := F)) := by
  cases n with
  | zero => rfl
  | succ n => simp only [accAt, if_pos h0]

theorem accAt_cont (c : Dev nD) (n : ℕ) (h : n + 1 < cfg0.N) (h0 : ¬(n + 1) % 4 = 0) :
    accAt m c (n + 1) h = step (yblk m c ⟨n + 1, h⟩) (tblk m c ⟨n + 1, h⟩) (accAt m c n (Nat.lt_of_succ_lt h)) := by
  simp only [accAt, if_neg h0]

/-- The scratch component of the generated point-by-point contents is the accumulator: by induction on the point. -/
theorem outsAt_snd (c : Dev nD) : ∀ (n : ℕ) (h : n < cfg0.N), (outsAt0 m c n h).2 = accAt m c n h
  | 0, h => by
    rw [outsAt0_A m c ⟨0, h⟩ rfl (by show ¬(0 % 4 = 3); omega)]
    dsimp only
    exact sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) _ _ (yblk m c ⟨0, h⟩) (tblk m c ⟨0, h⟩)
  | n + 1, h => by
    by_cases h0 : (n + 1) % 4 = 0
    · have h1 : ¬(n + 1) % 4 = 3 := by omega
      rw [outsAt0_A m c ⟨n + 1, h⟩ h0 h1, accAt_reset m c (n + 1) h h0]
      dsimp only
      exact sout_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (yblk m c ⟨n + 1, h⟩) (tblk m c ⟨n + 1, h⟩)
    · rw [accAt_cont m c n h h0, ← outsAt_snd c n (Nat.lt_of_succ_lt h)]
      by_cases h1 : (n + 1) % 4 = 3
      · rw [outsAt0_C m c ⟨n + 1, h⟩ h0 h1]
        dsimp only
        exact sout_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (yblk m c ⟨n + 1, h⟩) (tblk m c ⟨n + 1, h⟩) (outsAt0 m c n (Nat.lt_of_succ_lt h)).2
      · rw [outsAt0_B m c ⟨n + 1, h⟩ h0 h1]
        dsimp only
        exact sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (yblk m c ⟨n + 1, h⟩) (tblk m c ⟨n + 1, h⟩) (outsAt0 m c n (Nat.lt_of_succ_lt h)).2

/-- At the last point of a half the output block is the accumulator after that point, with a leading unit axis. -/
theorem outsAt_fst (c : Dev nD) (n : ℕ) (h : n + 1 < cfg0.N) (h1 : (n + 1) % 4 = 3) :
    (outsAt0 m c (n + 1) h).1 = k0_pay2 (accAt m c (n + 1) h) := by
  have h0 : ¬(n + 1) % 4 = 0 := by omega
  rw [accAt_cont m c n h h0, ← outsAt_snd m c n (Nat.lt_of_succ_lt h), outsAt0_C m c ⟨n + 1, h⟩ h0 h1]
  dsimp only
  exact out_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (yblk m c ⟨n + 1, h⟩) (tblk m c ⟨n + 1, h⟩) (outsAt0 m c n (Nat.lt_of_succ_lt h)).2

end Cert.KernelIdeal.Val
end
-- ==== Proof.Spec.lean ====
/-
  The quantity both programs compute, as one function of the three argument arrays over the extended reals.

  For a score `y` and an integer label `b` read as a real `t`, the three soft masks are `max t 0` (positive),
  `max (-t) 0` (negative) and `1 - |t|` (unlabelled), and the two sigmoid losses are `σ(-y)` and `σ(y)` with
  `σ(x) = 1 / (1 + e^(-x))`. Seven totals over all elements are taken: the three masks, and the products
  positive·σ(-y), positive·σ(y), negative·σ(y), unlabelled·σ(y). The result is
  `½·(p₀·R₊ + p₁·R₋ⁿ) + ½·(p₀·(R₊ − R₋ᵖ) + Rᵤ)`, each risk a total divided by `max 1 (its mask's total)`.
-/
import Idealize.ShloMosaic.PureOps.Ideal
import Idealize.ShloMosaic.PureOps.Ideal.Laws
import Idealize.ShloMosaic.Lib.ValueIdx
import Idealize.ShloMosaic.Lib.IdealHost

noncomputable section

namespace Cert.Pnu

open Idealize.ShloMosaic Idealize.ShloMosaic.ValueIdx

/-- The three float literals of both programs, kept as their words. -/
abbrev zf : EReal := Ideal.ofBits .f32 0x00000000#32
abbrev onef : EReal := Ideal.ofBits .f32 0x3F800000#32
abbrev halff : EReal := Ideal.ofBits .f32 0x3F000000#32

/-- A label word read as a real. -/
def tv (b : BitVec 32) : EReal := ((b.toInt : ℝ) : EReal)

/-- The positive, negative and unlabelled masks of a label. -/
def mp (b : BitVec 32) : EReal := max (tv b) zf
def mn (b : BitVec 32) : EReal := max (-(tv b)) zf
def mu (b : BitVec 32) : EReal := onef - max (tv b) (-(tv b))

/-- `σ(y)` and `σ(-y)`, spelt as quotients. -/
def sp (y : EReal) : EReal := Ideal.div onef (onef + Ideal.exp (-y))
def sn (y : EReal) : EReal := Ideal.div onef (onef + Ideal.exp (-(-y)))

/-- The summand of total `j` at one element; an eighth, zero, row pads the stack. -/
def term : Fin 8 → EReal → BitVec 32 → EReal
  | ⟨0, _⟩, _, b => mp b
  | ⟨1, _⟩, _, b => mn b
  | ⟨2, _⟩, _, b => mu b
  | ⟨3, _⟩, y, b => mp b * sn y
  | ⟨4, _⟩, y, b => mp b * sp y
  | ⟨5, _⟩, y, b => mn b * sp y
  | ⟨6, _⟩, y, b => mu b * sp y
  | ⟨_ + 7, _⟩, _, _ => zf

/-- The flat arrays' shape. -/
abbrev SN : Shape := ⟨1, ![16777216]⟩

/-- Total `j` over every element, from the zero the reduction starts at. -/
def total (j : Fin 8) (Y : SN.Idx → EReal) (T : SN.Idx → BitVec 32) : EReal :=
  zf + ∑ i : SN.Idx, term j (Y i) (T i)

/-- The scalar combination of the seven totals and the two class priors. -/
def tailS (s : Fin 8 → EReal) (p0 p1 : EReal) : EReal :=
  halff * (p0 * Ideal.div (s 3) (max onef (s 0)) + p1 * Ideal.div (s 5) (max onef (s 1)))
    + halff * (p0 * (Ideal.div (s 3) (max onef (s 0)) - Ideal.div (s 4) (max onef (s 0))) + Ideal.div (s 6) (max onef (s 2)))

/-- The result as a function of the argument arrays. -/
def spec (Y : SN.Idx → EReal) (T : SN.Idx → BitVec 32) (P : (⟨1, ![2]⟩ : Shape).Idx → EReal) : EReal :=
  tailS (fun j => total j Y T) (P (ix1 0)) (P (ix1 1))

end Cert.Pnu

end
-- ==== Proof.PayIdx.lean ====
/-
  One update of the accumulator read at an index, over the extended reals: row `j`, lane `l` of the stacked lane sums
  of a pair of blocks is the sum down lane `l`'s 16384 rows of summand `j`, and the update adds it to what was there.
  The kernel writes `0 - t` for `-t` and the one operation σ for `1 / (1 + e^(-x))`: the same extended reals.
-/
import proofs.«135766_j37366215475814_1_alg».proof.Proof.Pieces
import proofs.«135766_j37366215475814_1_alg».proof.Proof.Spec

noncomputable section
open Idealize.ShloMosaic Idealize.ShloMosaic.TcCoe Idealize.SL.Sem Idealize.ShloMosaic.ValueIdx

namespace Cert.KernelIdeal.Val
open Cert.KernelIdeal Cert.KernelIdeal.Gen Cert.Pnu

/-! ## The pointwise stages at an element -/

theorem pay4_apply (x0 : Vec Ideal S16384x128 .f32) (i : S16384x128.Idx) : k0_pay4 (F := Ideal) x0 i = x0 i := by
  unfold k0_pay4
  simp only [shapeCast_self]

theorem pay5_apply (x1 : Vec Ideal S16384x128 .i32) (i : S16384x128.Idx) : k0_pay5 (F := Ideal) x1 i = tv (x1 i) := by
  unfold k0_pay5
  simp only [shapeCast_self]
  rfl

theorem pay6_apply (x1 : Vec Ideal S16384x128 .i32) (i : S16384x128.Idx) : k0_pay6 (F := Ideal) x1 i = mp (x1 i) := by
  unfold k0_pay6 mp
  rw [maximumf_apply, pay5_apply]
  rfl

/-- The negative mask: `0 - t` is `-t`. -/
theorem pay7_apply (x1 : Vec Ideal S16384x128 .i32) (i : S16384x128.Idx) : k0_pay7 (F := Ideal) x1 i = mn (x1 i) := by
  unfold k0_pay7 mn
  rw [maximumf_apply, subf_apply, pay5_apply]
  show max (Ideal.ofBits .f32 0x00000000#32 - tv (x1 i)) zf = max (-(tv (x1 i))) zf
  rw [Ideal.ofBits_zero_f32, zero_sub]

theorem pay8_apply (x1 : Vec Ideal S16384x128 .i32) (i : S16384x128.Idx) : k0_pay8 (F := Ideal) x1 i = mu (x1 i) := by
  unfold k0_pay8 mu
  rw [subf_apply]
  show onef - max (k0_pay5 (F := Ideal) x1 i) (-(k0_pay5 (F := Ideal) x1 i)) = _
  rw [pay5_apply]

/-- σ(y): the one operation is the quotient, the literal one being the real one. -/
theorem pay9_apply (x0 : Vec Ideal S16384x128 .f32) (i : S16384x128.Idx) : k0_pay9 (F := Ideal) x0 i = sp (x0 i) := by
  unfold k0_pay9 sp
  show Ideal.logistic (k0_pay4 (F := Ideal) x0 i) = _
  rw [pay4_apply, Ideal.logistic, show onef = (1 : EReal) from Ideal.ofBits_one_f32]

/-- σ(-y), the kernel negating by `0 - y`. -/
theorem sneg_apply (x0 : Vec Ideal S16384x128 .f32) (i : S16384x128.Idx) :
    (logistic (subf (broadcast S16384x128 (Scalar.ofBits .f32 0x00000000#32)) (k0_pay4 (F := Ideal) x0)) : FVec Ideal S16384x128 .f32) i = sn (x0 i) := by
  unfold sn
  show Ideal.logistic (Ideal.ofBits .f32 0x00000000#32 - k0_pay4 (F := Ideal) x0 i) = _
  rw [pay4_apply, Ideal.logistic, Ideal.ofBits_zero_f32, zero_sub, show onef = (1 : EReal) from Ideal.ofBits_one_f32]

/-! ## A lane's sum down the rows -/

theorem lift_ix (l : Fin 128) (r : Fin 16384) : reduces_S16384x128_S128.lift (ix1 l) r = ix2 r l := by
  funext a
  match a with
  | ⟨0, _⟩ => rfl
  | ⟨1, _⟩ => rfl

/-- The sum over axis 0 of a [16384, 128] array, kept as one row: at lane `l` the sum of column `l`. -/
theorem colsum (src : FVec Ideal S16384x128 .f32) (hφ : FKind.Formats .f32) (hacc : (0x00000000#32 : BitVec 32) = 0x00000000#32) (l : Fin 128) :
    shapeCast S1x128 (multiReduction .add [0] S128 src 0x00000000#32 reduces_S16384x128_S128 hφ hacc) shapeCasts_S128_S1x128 (ix2 0 l)
      = ∑ r : Fin 16384, src (ix2 r l) := by
  refine (shapeCast_apply _ _ (ix2 0 l) (ix1 l) (by rw [Shape.rowMajor_val_two, Shape.rowMajor_val_one]; show l.val = 0 * 128 + l.val; omega)).trans ?_
  refine (Ideal.multiReduction_add_single src 0x00000000#32 reduces_S16384x128_S128 hφ hacc (ix1 l)).trans ?_
  exact Finset.sum_congr rfl fun r _ => congrArg src (lift_ix l r)

theorem k0_pay10_apply (x0 : Vec Ideal S16384x128 .f32) (x1 : Vec Ideal S16384x128 .i32) (l : Fin 128) :
    k0_pay10 (F := Ideal) x1 (ix2 0 l) = ∑ r : Fin 16384, term 0 (x0 (ix2 r l)) (x1 (ix2 r l)) := by
  unfold k0_pay10
  refine (colsum _ _ _ l).trans (Finset.sum_congr rfl fun r _ => ?_)
  rw [pay6_apply]; rfl

theorem k0_pay11_apply (x0 : Vec Ideal S16384x128 .f32) (x1 : Vec Ideal S16384x128 .i32) (l : Fin 128) :
    k0_pay11 (F := Ideal) x1 (ix2 0 l) = ∑ r : Fin 16384, term 1 (x0 (ix2 r l)) (x1 (ix2 r l)) := by
  unfold k0_pay11
  refine (colsum _ _ _ l).trans (Finset.sum_congr rfl fun r _ => ?_)
  rw [pay7_apply]; rfl

theorem k0_pay12_apply (x0 : Vec Ideal S16384x128 .f32) (x1 : Vec Ideal S16384x128 .i32) (l : Fin 128) :
    k0_pay12 (F := Ideal) x1 (ix2 0 l) = ∑ r : Fin 16384, term 2 (x0 (ix2 r l)) (x1 (ix2 r l)) := by
  unfold k0_pay12
  refine (colsum _ _ _ l).trans (Finset.sum_congr rfl fun r _ => ?_)
  rw [pay8_apply]; rfl

theorem k0_pay13_apply (x0 : Vec Ideal S16384x128 .f32) (x1 : Vec Ideal S16384x128 .i32) (l : Fin 128) :
    k0_pay13 (F := Ideal) x0 x1 (ix2 0 l) = ∑ r : Fin 16384, term 3 (x0 (ix2 r l)) (x1 (ix2 r l)) := by
  unfold k0_pay13
  refine (colsum _ _ _ l).trans (Finset.sum_congr rfl fun r _ => ?_)
  rw [mulf_apply, pay6_apply, sneg_apply]; rfl

theorem k0_pay14_apply (x0 : Vec Ideal S16384x128 .f32) (x1 : Vec Ideal S16384x128 .i32) (l : Fin 128) :
    k0_pay14 (F := Ideal) x0 x1 (ix2 0 l) = ∑ r : Fin 16384, term 4 (x0 (ix2 r l)) (x1 (ix2 r l)) := by
  unfold k0_pay14
  refine (colsum _ _ _ l).trans (Finset.sum_congr rfl fun r _ => ?_)
  rw [mulf_apply, pay6_apply, pay9_apply]; rfl

theorem k0_pay15_apply (x0 : Vec Ideal S16384x128 .f32) (x1 : Vec Ideal S16384x128 .i32) (l : Fin 128) :
    k0_pay15 (F := Ideal) x0 x1 (ix2 0 l) = ∑ r : Fin 16384, term 5 (x0 (ix2 r l)) (x1 (ix2 r l)) := by
  unfold k0_pay15
  refine (colsum _ _ _ l).trans (Finset.sum_congr rfl fun r _ => ?_)
  rw [mulf_apply, pay7_apply, pay9_apply]; rfl

theorem k0_pay16_apply (x0 : Vec Ideal S16384x128 .f32) (x1 : Vec Ideal S16384x128 .i32) (l : Fin 128) :
    k0_pay16 (F := Ideal) x0 x1 (ix2 0 l) = ∑ r : Fin 16384, term 6 (x0 (ix2 r l)) (x1 (ix2 r l)) := by
  unfold k0_pay16
  refine (colsum _ _ _ l).trans (Finset.sum_congr rfl fun r _ => ?_)
  rw [mulf_apply, pay8_apply, pay9_apply]; rfl

/-! ## One update at an index -/

/-- Eight one-row pieces stacked along axis 0, read at row `j`, lane `l`: piece `j` at lane `l`. -/
theorem stack_apply (v0 v1 v2 v3 v4 v5 v6 v7 : S1x128.Idx → EReal)
    (h : Shape.Concatenates [S1x128, S1x128, S1x128, S1x128, S1x128, S1x128, S1x128, S1x128] S8x128 0) (j : Fin 8) (l : Fin 128) :
    concatenate S8x128 0 [⟨S1x128, v0⟩, ⟨S1x128, v1⟩, ⟨S1x128, v2⟩, ⟨S1x128, v3⟩, ⟨S1x128, v4⟩, ⟨S1x128, v5⟩, ⟨S1x128, v6⟩, ⟨S1x128, v7⟩] h (ix2 j l)
      = (![v0, v1, v2, v3, v4, v5, v6, v7] j) (ix2 0 l) := by
  have e : ([⟨S1x128, v0⟩, ⟨S1x128, v1⟩, ⟨S1x128, v2⟩, ⟨S1x128, v3⟩, ⟨S1x128, v4⟩, ⟨S1x128, v5⟩, ⟨S1x128, v6⟩, ⟨S1x128, v7⟩] : List ((s : Shape) × (s.Idx → EReal)))
      = List.ofFn fun n : Fin 8 => (⟨S1x128, ![v0, v1, v2, v3, v4, v5, v6, v7] n⟩ : (s : Shape) × (s.Idx → EReal)) := by
    simp [List.ofFn_succ, Fin.succ]
  have key := concatenate_ofFn_unit_apply (t := S8x128) (s₁ := S1x128) (0 : Fin 2) (![v0, v1, v2, v3, v4, v5, v6, v7])
    (by rw [← e]; exact h) rfl rfl (ix2 j l) j rfl (ix2 0 l)
    (fun b hb => by match b with | ⟨0, _⟩ => exact absurd rfl hb | ⟨1, _⟩ => rfl)
  rw [← key]
  congr 1

/-- Row `j`, lane `l` of the updated accumulator: what was there plus the lane's sum of summand `j`. -/
theorem step_apply (x0 : Vec Ideal S16384x128 .f32) (x1 : Vec Ideal S16384x128 .i32) (xs : Vec Ideal S8x128 .f32) (j : Fin 8) (l : Fin 128) :
    step (F := Ideal) x0 x1 xs (ix2 j l) = xs (ix2 j l) + ∑ r : Fin 16384, term j (x0 (ix2 r l)) (x1 (ix2 r l)) := by
  unfold step k0_pay1
  simp only [shapeCast_self]
  rw [addf_apply]
  refine congrArg (fun z : EReal => xs (ix2 j l) + z) ?_
  refine (stack_apply _ _ _ _ _ _ _ _ _ j l).trans ?_
  match j with
  | ⟨0, _⟩ => exact k0_pay10_apply x0 x1 l
  | ⟨1, _⟩ => exact k0_pay11_apply x0 x1 l
  | ⟨2, _⟩ => exact k0_pay12_apply x0 x1 l
  | ⟨3, _⟩ => exact k0_pay13_apply x0 x1 l
  | ⟨4, _⟩ => exact k0_pay14_apply x0 x1 l
  | ⟨5, _⟩ => exact k0_pay15_apply x0 x1 l
  | ⟨6, _⟩ => exact k0_pay16_apply x0 x1 l
  | ⟨7, _⟩ =>
    show Ideal.ofBits .f32 0x00000000#32 = ∑ r : Fin 16384, Ideal.ofBits .f32 0x00000000#32
    rw [Ideal.ofBits_zero_f32, Finset.sum_const_zero]

/-- The zero block a restart stores. -/
theorem pay3_apply (i : S8x128.Idx) : k0_pay3 (F := Ideal) i = zf := by
  unfold k0_pay3
  simp only [shapeCast_self]
  rfl

end Cert.KernelIdeal.Val
end
-- ==== Proof.Blocks.lean ====
import proofs.«135766_j37366215475814_1_alg».proof.Proof.Gen.KernelIdeal.Frame
import proofs.«135766_j37366215475814_1_alg».proof.Proof.Spec
import Idealize.ShloMosaic.Lib.Pipeline.Value

noncomputable section
open Idealize.ShloMosaic Idealize.ShloMosaic.TcCoe Idealize.SL.Sem Idealize.ShloMosaic.ValueIdx
open Idealize.ShloMosaic.Pipeline (Dat)

namespace Cert.KernelIdeal.Val
open Cert.KernelIdeal Cert.KernelIdeal.Gen Cert.Pnu

variable (m : (ℓ : Loc nD τ sig) → Buf (Elt Ideal) ℓ)

/-- The first window's array, as the region finds it, is the flat argument reshaped into rows of 128. -/
theorem V_v0 (c : Dev nD) :
    (V m c main_v0 : S131072x128.Idx → EReal)
      = shapeCast S131072x128 (m ((c : Thread nD τ).loc main_arg0)) shapeCasts_S16777216_S131072x128 := by
  dsimp only [Gen.V, Gen.V0]
  simp only [Gen.hostOps0, List.flatten_cons, List.flatten_nil, List.append_nil]
  after_results
  rfl

/-- The second window's array is the flat integer argument reshaped the same way. -/
theorem V_v1 (c : Dev nD) :
    (V m c main_v1 : S131072x128.Idx → BitVec 32)
      = shapeCast S131072x128 (m ((c : Thread nD τ).loc main_arg1)) shapeCasts_S16777216_S131072x128 := by
  dsimp only [Gen.V, Gen.V0]
  simp only [Gen.hostOps0, List.flatten_cons, List.flatten_nil, List.append_nil]
  after_results
  rfl

/-- Both input windows step through the row blocks in point order: block index (t, 0). -/
theorem idx_in : ∀ t : Fin cfg0.N, (win0_0.index t 0 = t.val ∧ win0_0.index t 1 = 0)
    ∧ (win0_1.index t 0 = t.val ∧ win0_1.index t 1 = 0) :=
  (by decide +kernel : ∀ t : Fin grid0.N, (win0_0.index t 0 = t.val ∧ win0_0.index t 1 = 0)
    ∧ (win0_1.index t 0 = t.val ∧ win0_1.index t 1 = 0))

/-- A point's first input block, read at row r and lane l, is the flat argument at the element of that row and lane of
    row block t: position (16384 t + r) · 128 + l. -/
theorem iblk0_apply (c : Dev nD) (t : Fin cfg0.N) (r : Fin 16384) (l : Fin 128) (i : S16777216.Idx)
    (hi : (i 0).val = (t.val * 16384 + r.val) * 128 + l.val) :
    (iblk m c 0 t : Vec Ideal S16384x128 .f32) (ix2 r l) = m ((c : Thread nD τ).loc main_arg0) i := by
  unfold iblk
  rw [View.read_apply]
  show V m c main_v0 (((cfg0.win 0).blk t).view.emb (ix2 r l)) = _
  refine (congrFun (V_v0 m c) _).trans ?_
  refine shapeCast_apply _ _ _ i ?_
  rw [Shape.rowMajor_val_one, Shape.rowMajor_val_two]
  have h0 : ((((cfg0.win 0).blk t).view.emb (ix2 r l)) 0).val = win0_0.index t 0 * 16384 + 1 * r.val := rfl
  have h1 : ((((cfg0.win 0).blk t).view.emb (ix2 r l)) 1).val = win0_0.index t 1 * 128 + 1 * l.val := rfl
  rw [h0, h1, (idx_in t).1.1, (idx_in t).1.2, hi]
  show _ = (t.val * 16384 + 1 * r.val) * 128 + (0 * 128 + 1 * l.val)
  omega

/-- The same for the second input block and the flat integer argument. -/
theorem iblk1_apply (c : Dev nD) (t : Fin cfg0.N) (r : Fin 16384) (l : Fin 128) (i : S16777216.Idx)
    (hi : (i 0).val = (t.val * 16384 + r.val) * 128 + l.val) :
    (iblk m c 1 t : Vec Ideal S16384x128 .i32) (ix2 r l) = m ((c : Thread nD τ).loc main_arg1) i := by
  unfold iblk
  rw [View.read_apply]
  show V m c main_v1 (((cfg0.win 1).blk t).view.emb (ix2 r l)) = _
  refine (congrFun (V_v1 m c) _).trans ?_
  refine shapeCast_apply _ _ _ i ?_
  rw [Shape.rowMajor_val_one, Shape.rowMajor_val_two]
  have h0 : ((((cfg0.win 1).blk t).view.emb (ix2 r l)) 0).val = win0_1.index t 0 * 16384 + 1 * r.val := rfl
  have h1 : ((((cfg0.win 1).blk t).view.emb (ix2 r l)) 1).val = win0_1.index t 1 * 128 + 1 * l.val := rfl
  rw [h0, h1, (idx_in t).2.1, (idx_in t).2.2, hi]
  show _ = (t.val * 16384 + 1 * r.val) * 128 + (0 * 128 + 1 * l.val)
  omega

/-- The result window's block index at a point is (t / 4, 0, 0), and its blocks are never clipped: [1, 8, 128]. -/
theorem idx_out : ∀ t : Fin cfg0.N, (win0_2.index t 0 = t.val / 4 ∧ win0_2.index t 1 = 0 ∧ win0_2.index t 2 = 0)
    ∧ (win0_2.xsize (grid0.coords t) 0 = 1 ∧ win0_2.xsize (grid0.coords t) 1 = 8 ∧ win0_2.xsize (grid0.coords t) 2 = 128) :=
  (by decide +kernel : ∀ t : Fin grid0.N, (win0_2.index t 0 = t.val / 4 ∧ win0_2.index t 1 = 0 ∧ win0_2.index t 2 = 0)
    ∧ (win0_2.xsize (grid0.coords t) 0 = 1 ∧ win0_2.xsize (grid0.coords t) 1 = 8 ∧ win0_2.xsize (grid0.coords t) 2 = 128))

/-- What a flushing point t = 4 p + 3 writes back is block p of G, when the staging buffer there holds row p of G. -/
theorem flushed2_eq (c : Dev nD) (G : Buf (Elt Ideal) ((c : Thread nD τ).loc main_v2))
    (hG : ∀ (t : Fin cfg0.N) (p : Fin 2), t.val = 4 * p.val + 3 → ∀ (j : Fin 8) (l : Fin 128),
      ((outsAt0 m c t.val t.isLt).1 : Vec Ideal S1x8x128 .f32) (ix3 0 j l) = G (ix3 p j l))
    (t : Fin cfg0.N) (hf : (cfg0.win 2).flush t = true) :
    (dats m 0 c).flushed 2 t = ((cfg0.win 2).blk t).view.read (Elt Ideal) G := by
  have h3 : t.val % 4 = 3 := (flush0_2 t).mp hf
  have hN : t.val < 8 := lt_of_lt_of_eq t.isLt N_0
  show (cfg0.win 2).cut (grid0.coords t) ((dats m 0 c).after 2 t) = _
  rw [after0_2]
  funext y
  rw [View.read_apply]
  have hy0 : (y 0).val < 1 := lt_of_lt_of_eq (y 0).isLt (idx_out t).2.1
  have hy1 : (y 1).val < 8 := lt_of_lt_of_eq (y 1).isLt (idx_out t).2.2.1
  have hy2 : (y 2).val < 128 := lt_of_lt_of_eq (y 2).isLt (idx_out t).2.2.2
  have hp : t.val / 4 < 2 := by omega
  show (outsAt0 m c t.val t.isLt).1 (win0_2.xinj (grid0.coords t) y) = G (((cfg0.win 2).blk t).view.emb y)
  have e1 : (win0_2.xinj (grid0.coords t) y : S1x8x128.Idx) = ix3 0 ⟨(y 1).val, hy1⟩ ⟨(y 2).val, hy2⟩ := by
    funext a
    apply Fin.ext
    match a with
    | ⟨0, _⟩ => show (y 0).val = 0; omega
    | ⟨1, _⟩ => rfl
    | ⟨2, _⟩ => rfl
  have e2 : (((cfg0.win 2).blk t).view.emb y : S2x8x128.Idx)
      = ix3 ⟨t.val / 4, hp⟩ ⟨(y 1).val, hy1⟩ ⟨(y 2).val, hy2⟩ := by
    funext a
    apply Fin.ext
    match a with
    | ⟨0, _⟩ => show win0_2.index t 0 * 1 + 1 * (y 0).val = t.val / 4; rw [(idx_out t).1.1]; omega
    | ⟨1, _⟩ => show win0_2.index t 1 * 8 + 1 * (y 1).val = (y 1).val; rw [(idx_out t).1.2.1]; omega
    | ⟨2, _⟩ => show win0_2.index t 2 * 128 + 1 * (y 2).val = (y 2).val; rw [(idx_out t).1.2.2]; omega
  rw [e1, e2]
  exact hG t ⟨t.val / 4, hp⟩ (by show t.val = 4 * (t.val / 4) + 3; omega) _ _

/-- The two flushed blocks tile the result array (index i lies in the block of point 4 · i₀ + 3), so the array ends
    holding G. -/
theorem final2 (c : Dev nD) (G : Buf (Elt Ideal) ((c : Thread nD τ).loc main_v2))
    (hG : ∀ (t : Fin cfg0.N) (p : Fin 2), t.val = 4 * p.val + 3 → ∀ (j : Fin 8) (l : Fin 128),
      ((outsAt0 m c t.val t.isLt).1 : Vec Ideal S1x8x128 .f32) (ix3 0 j l) = G (ix3 p j l)) :
    (dats m 0 c).arrAt 2 cfg0.N = G :=
  (dats m 0 c).arrAt_eq_of_cover 2 G (flushed2_eq m c G hG) fun i => by
    have hi0 : (i 0 : Nat) < 2 := (i 0).isLt
    have hi1 : (i 1 : Nat) < 8 := (i 1).isLt
    have hi2 : (i 2 : Nat) < 128 := (i 2).isLt
    have hT : 4 * (i 0 : Nat) + 3 < cfg0.N := by rw [show cfg0.N = 8 from N_0]; omega
    have hq : (4 * (i 0 : Nat) + 3) / 4 = (i 0 : Nat) := by omega
    refine ⟨⟨4 * (i 0 : Nat) + 3, hT⟩, (flush0_2 _).mpr (by show (4 * (i 0 : Nat) + 3) % 4 = 3; omega), ?_⟩
    show i ∈ ((View.whole main_v2).slice (win0_2.rect ⟨4 * (i 0 : Nat) + 3, hT⟩)).set
    rw [View.set_slice_whole, Rect.mem_set_unit]
    intro a
    match a with
    | ⟨0, _⟩ =>
      show win0_2.index ⟨4 * (i 0 : Nat) + 3, hT⟩ 0 * 1 ≤ (i 0 : Nat)
        ∧ (i 0 : Nat) < win0_2.index ⟨4 * (i 0 : Nat) + 3, hT⟩ 0 * 1 + win0_2.xsize (grid0.coords ⟨4 * (i 0 : Nat) + 3, hT⟩) 0
      rw [(idx_out _).1.1, (idx_out _).2.1]
      show (4 * (i 0 : Nat) + 3) / 4 * 1 ≤ (i 0 : Nat) ∧ (i 0 : Nat) < (4 * (i 0 : Nat) + 3) / 4 * 1 + 1
      omega
    | ⟨1, _⟩ =>
      show win0_2.index ⟨4 * (i 0 : Nat) + 3, hT⟩ 1 * 8 ≤ (i 1 : Nat)
        ∧ (i 1 : Nat) < win0_2.index ⟨4 * (i 0 : Nat) + 3, hT⟩ 1 * 8 + win0_2.xsize (grid0.coords ⟨4 * (i 0 : Nat) + 3, hT⟩) 1
      rw [(idx_out _).1.2.1, (idx_out _).2.2.1]
      omega
    | ⟨2, _⟩ =>
      show win0_2.index ⟨4 * (i 0 : Nat) + 3, hT⟩ 2 * 128 ≤ (i 2 : Nat)
        ∧ (i 2 : Nat) < win0_2.index ⟨4 * (i 0 : Nat) + 3, hT⟩ 2 * 128 + win0_2.xsize (grid0.coords ⟨4 * (i 0 : Nat) + 3, hT⟩) 2
      rw [(idx_out _).1.2.2, (idx_out _).2.2.2]
      omega

end Cert.KernelIdeal.Val
end
-- ==== Proof.HostTail.lean ====
import proofs.«135766_j37366215475814_1_alg».proof.Proof.Gen.KernelIdeal.Frame
import proofs.«135766_j37366215475814_1_alg».proof.Proof.Spec
import Idealize.ShloMosaic.Lib.Pipeline.Value
import Idealize.ShloMosaic.Lib.StableHlo.Run
import Idealize.ShloMosaic.Lib.IdealHost

noncomputable section
open Idealize.ShloMosaic Idealize.ShloMosaic.TcCoe Idealize.SL.Sem Idealize.ShloMosaic.ValueIdx
open Idealize.ShloMosaic.Pipeline (Dat)

namespace Cert.KernelIdeal.Val
open Cert.KernelIdeal Cert.KernelIdeal.Gen Cert.Pnu

variable (m : (ℓ : Loc nD τ sig) → Buf (Elt Ideal) ℓ)

/-- Row `j` of the result array: the two blocks' entries added from the zero word, then the 128 lanes
    added from the zero word. -/
def ksum (A : S2x8x128.Idx → EReal) (j : Fin 8) : EReal := zf + ∑ l : Fin 128, (zf + ∑ p : Fin 2, A (ix3 p j l))

/-- The two host reductions (axis 0 of [2,8,128], then axis 1 of [8,128]), read at row `j`. -/
theorem sums_apply (A : FVec Ideal S2x8x128 .f32) (h0 : S2x8x128.ReducesTo [0] S8x128) (h1 : S8x128.ReducesTo [1] S8)
    (hu : 0 < S_.numel) (j : Fin 8) :
    Host.reduceAdd (Host.reduceAdd A (constant (F := Ideal) S_ .f32 0x00000000#32) h0 hu)
        (constant (F := Ideal) S_ .f32 0x00000000#32) h1 hu (ix1 j) = ksum A j := by
  have r1 : S8x128.Reduces [1] S8 := by decide
  have r0 : S2x8x128.Reduces [0] S8x128 := by decide
  refine (hostReduceAdd_apply _ _ h1 hu (ix1 j)).trans ?_
  refine (Ideal.hostReduceAdd_single h1 r1 _ _ (ix1 j)).trans ?_
  unfold ksum
  refine congrArg₂ (· + ·) rfl ?_
  refine Finset.sum_congr rfl fun l _ => ?_
  refine (hostReduceAdd_apply _ _ h0 hu _).trans ?_
  refine (Ideal.hostReduceAdd_single h0 r0 _ _ _).trans ?_
  refine congrArg₂ (· + ·) rfl ?_
  refine Finset.sum_congr rfl fun p _ => ?_
  exact congrArg A (funext fun a => by fin_cases a <;> rfl)

/-- One entry of a vector of 8 cut out as a vector of 1 and reshaped to a scalar is that entry. -/
theorem pick8_apply (v : S8.Idx → EReal) (o : Nat) (ho : o < 8) (hs : S8.Slices ![o] S1) (hc : S1.ShapeCasts S_) (i : S_.Idx) :
    shapeCast S_ (extractStridedSlice S1 ![o] v hs) hc i = v (ix1 ⟨o, ho⟩) := by
  refine (shapeCast_apply _ hc i (ix1 0) ?_).trans ?_
  · have h1 := (S1.rowMajor (ix1 0)).isLt
    have h2 := (S_.rowMajor i).isLt
    have e1 : S1.numel = 1 := by decide
    have e2 : S_.numel = 1 := by decide
    omega
  · exact extractStridedSlice_apply _ v hs (ix1 0) (ix1 ⟨o, ho⟩) (fun a => by fin_cases a; rfl)

/-- The same out of a vector of 2. -/
theorem pick2_apply (v : S2.Idx → EReal) (o : Nat) (ho : o < 2) (hs : S2.Slices ![o] S1) (hc : S1.ShapeCasts S_) (i : S_.Idx) :
    shapeCast S_ (extractStridedSlice S1 ![o] v hs) hc i = v (ix1 ⟨o, ho⟩) := by
  refine (shapeCast_apply _ hc i (ix1 0) ?_).trans ?_
  · have h1 := (S1.rowMajor (ix1 0)).isLt
    have h2 := (S_.rowMajor i).isLt
    have e1 : S1.numel = 1 := by decide
    have e2 : S_.numel = 1 := by decide
    omega
  · exact extractStridedSlice_apply _ v hs (ix1 0) (ix1 ⟨o, ho⟩) (fun a => by fin_cases a; rfl)

/-- The scalar combination read off the vector of row sums and the vector of the two priors, each scalar cut out and
    reshaped as the operations do it. -/
theorem tail_read (V4 : S8.Idx → EReal) (P : S2.Idx → EReal)
    (g0 : S8.Slices ![0] S1) (g1 : S8.Slices ![1] S1) (g2 : S8.Slices ![2] S1) (g3 : S8.Slices ![3] S1)
    (g4 : S8.Slices ![4] S1) (g5 : S8.Slices ![5] S1) (g6 : S8.Slices ![6] S1)
    (q0 : S2.Slices ![0] S1) (q1 : S2.Slices ![1] S1) (hc : S1.ShapeCasts S_) (i : S_.Idx) :
    halff * (shapeCast S_ (extractStridedSlice S1 ![0] P q0) hc i * Ideal.div (shapeCast S_ (extractStridedSlice S1 ![3] V4 g3) hc i) (max onef (shapeCast S_ (extractStridedSlice S1 ![0] V4 g0) hc i))
          + shapeCast S_ (extractStridedSlice S1 ![1] P q1) hc i * Ideal.div (shapeCast S_ (extractStridedSlice S1 ![5] V4 g5) hc i) (max onef (shapeCast S_ (extractStridedSlice S1 ![1] V4 g1) hc i)))
      + halff * (shapeCast S_ (extractStridedSlice S1 ![0] P q0) hc i * (Ideal.div (shapeCast S_ (extractStridedSlice S1 ![3] V4 g3) hc i) (max onef (shapeCast S_ (extractStridedSlice S1 ![0] V4 g0) hc i))
              - Ideal.div (shapeCast S_ (extractStridedSlice S1 ![4] V4 g4) hc i) (max onef (shapeCast S_ (extractStridedSlice S1 ![0] V4 g0) hc i)))
          + Ideal.div (shapeCast S_ (extractStridedSlice S1 ![6] V4 g6) hc i) (max onef (shapeCast S_ (extractStridedSlice S1 ![2] V4 g2) hc i)))
      = tailS (fun j => V4 (ix1 j)) (P (ix1 0)) (P (ix1 1)) := by
  rw [pick8_apply V4 0 (by decide) g0 hc i, pick8_apply V4 1 (by decide) g1 hc i, pick8_apply V4 2 (by decide) g2 hc i,
    pick8_apply V4 3 (by decide) g3 hc i, pick8_apply V4 4 (by decide) g4 hc i, pick8_apply V4 5 (by decide) g5 hc i,
    pick8_apply V4 6 (by decide) g6 hc i, pick2_apply P 0 (by decide) q0 hc i, pick2_apply P 1 (by decide) q1 hc i]
  rfl

/-- What the 45 operations leave in the result buffer, over any valuation they start from. -/
theorem tail_after (X : Valuation τ sig (Elt Ideal)) :
    StableHlo.after (hostOps1 (F := Ideal)) X (Proc.devRef .tc main_v40)
      = fun _ => tailS (ksum (X (Proc.devRef .tc main_v2))) (X (Proc.devRef .tc main_arg2) (ix1 0)) (X (Proc.devRef .tc main_arg2) (ix1 1)) := by
  after_results_simp
  funext i
  simp only [addf_apply, mulf_apply, subf_apply, maximumf_apply, hostDivf_apply, constant_apply]
  have hV : ∀ j : Fin 8, Host.reduceAdd (Host.reduceAdd (X (Proc.devRef .tc main_v2)) (constant (F := Ideal) S_ .f32 0x00000000#32) reducesTo_S2x8x128_S8x128_d0 h_S_)
      (constant (F := Ideal) S_ .f32 0x00000000#32) reducesTo_S8x128_S8_d1 h_S_ (ix1 j) = ksum (X (Proc.devRef .tc main_v2)) j :=
    fun j => sums_apply (X (Proc.devRef .tc main_v2)) reducesTo_S2x8x128_S8x128_d0 reducesTo_S8x128_S8_d1 h_S_ j
  generalize Host.reduceAdd (Host.reduceAdd (X (Proc.devRef .tc main_v2)) (constant (F := Ideal) S_ .f32 0x00000000#32) reducesTo_S2x8x128_S8x128_d0 h_S_)
      (constant (F := Ideal) S_ .f32 0x00000000#32) reducesTo_S8x128_S8_d1 h_S_ = V4 at hV ⊢
  generalize X (Proc.devRef .tc main_arg2) = P
  refine (tail_read V4 P slices_S8_S1_0 slices_S8_S1_1 slices_S8_S1_2 slices_S8_S1_3 slices_S8_S1_4 slices_S8_S1_5
    slices_S8_S1_6 slices_S2_S1_0 slices_S2_S1_1 shapeCasts_S1_S_ i).trans ?_
  exact congrArg (fun s => tailS s (P (ix1 0)) (P (ix1 1))) (funext hV)

/-- The scalar result after the region: the combination of the row sums of the region's result array and the two priors
    as launched. -/
theorem tail_value (c : Dev nD) (A : Buf (Elt Ideal) ((c : Thread nD τ).loc main_v2)) (hA : (dats m 0 c).arrAt 2 cfg0.N = A) :
    Pipeline.afterTail₀ cfgs (dats m) 0 (V0 m) [hostOps1] c main_v40
      = fun _ => tailS (ksum A) (m ((c : Thread nD τ).loc main_arg2) (ix1 0)) (m ((c : Thread nD τ).loc main_arg2) (ix1 1)) := by
  unfold Pipeline.afterTail₀
  show StableHlo.after hostOps1 _ (Proc.devRef .tc main_v40) = _
  rw [tail_after]
  have e2 : Pipeline.withArrays (cfgs 0).spec c (V0 m c) (fun w => (dats m 0 c).arrAt w (cfgs 0).N) (Proc.devRef .tc main_v2) = A :=
    (Pipeline.withArrays_arr spec0 launch0.win.arr_inj c _ _ 2).trans hA
  have e3 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  rw [e2, e3]

end Cert.KernelIdeal.Val

end
-- ==== Proof.SumBridge.lean ====
import Mathlib.Algebra.BigOperators.Group.Finset.Basic
import Mathlib.Data.Fintype.BigOperators
import Mathlib.Data.Fintype.Card
import Idealize.ShloMosaic.Lib.ValueIdx
import Idealize.ShloMosaic.Lib.ValueIdxRank1

open scoped BigOperators

namespace Cert.Pnu

open Idealize.ShloMosaic Idealize.ShloMosaic.ValueIdx

/-- The mixed-radix position map `(l, p, k, r) ↦ ((4p + k) · 16384 + r) · 128 + l` is a bijection from
    `Fin 128 × Fin 2 × Fin 4 × Fin 16384` onto the flat index set: it is injective because the digits of a
    mixed-radix numeral are unique, and both sides have `16777216` elements. -/
theorem pos_bijective
    (pos : Fin 2 → Fin 4 → Fin 16384 → Fin 128 → (⟨1, ![16777216]⟩ : Shape).Idx)
    (hpos : ∀ p k r l, ((pos p k r l) 0).val = ((4 * p.val + k.val) * 16384 + r.val) * 128 + l.val) :
    Function.Bijective
      (fun x : Fin 128 × Fin 2 × Fin 4 × Fin 16384 => pos x.2.1 x.2.2.1 x.2.2.2 x.1) := by
  rw [Fintype.bijective_iff_injective_and_card]
  constructor
  · rintro ⟨l, p, k, r⟩ ⟨l', p', k', r'⟩ h
    have h0 : ((pos p k r l) 0).val = ((pos p' k' r' l') 0).val := by
      have := congrFun h 0
      exact congrArg Fin.val this
    rw [hpos, hpos] at h0
    have hl := l.isLt; have hl' := l'.isLt
    have hp := p.isLt; have hp' := p'.isLt
    have hk := k.isLt; have hk' := k'.isLt
    have hr := r.isLt; have hr' := r'.isLt
    have e1 : l.val = l'.val := by omega
    have e2 : r.val = r'.val := by omega
    have e3 : k.val = k'.val := by omega
    have e4 : p.val = p'.val := by omega
    rw [Fin.ext e1, Fin.ext e2, Fin.ext e3, Fin.ext e4]
  · rw [Fintype.card_congr (idxEquiv1 (n := 16777216))]
    simp only [Fintype.card_prod, Fintype.card_fin]

/-- Summing a family over the flat index set of length `2 · 4 · 16384 · 128` in one go equals summing it in blocks:
    for each of the `128` lanes, over the `2` halves, the `4` steps and the `16384` rows, where
    `pos p k r l` is the flat position `((4p + k) · 16384 + r) · 128 + l`. The position map is a bijection of the
    product of the four ranges onto the flat index set, and a sum in a commutative monoid is invariant under
    re-indexing along a bijection. -/
theorem sum_regroup {M : Type*} [AddCommMonoid M] (g : (⟨1, ![16777216]⟩ : Shape).Idx → M)
    (pos : Fin 2 → Fin 4 → Fin 16384 → Fin 128 → (⟨1, ![16777216]⟩ : Shape).Idx)
    (hpos : ∀ p k r l, ((pos p k r l) 0).val = ((4 * p.val + k.val) * 16384 + r.val) * 128 + l.val) :
    ∑ l : Fin 128, ∑ p : Fin 2, ∑ k : Fin 4, ∑ r : Fin 16384, g (pos p k r l)
      = ∑ i : (⟨1, ![16777216]⟩ : Shape).Idx, g i := by
  rw [← (pos_bijective pos hpos).sum_comp g]
  simp only [Fintype.sum_prod_type]

end Cert.Pnu
-- ==== Proof.KernelValue.lean ====
/-
  The kernel's result as a function of the argument arrays, over the extended reals.

  Row block `4p + k` of the reshaped arguments holds the flat elements `((4p + k)·16384 + r)·128 + l`. After the last
  point of half `p` the accumulator's row `j`, lane `l` is `(((0 + s₀) + s₁) + s₂) + s₃`, `s_k` the sum of summand
  `j` down lane `l` of row block `4p + k`; that is what the result array holds at `(p, j, l)`. The host then adds the
  two halves and the 128 lanes, so each of its seven totals is the sum over all 2·4·16384·128 elements, regrouped:
  addition of extended reals is commutative and associative, so the regrouped sum is the total the reference takes.
-/
import proofs.«135766_j37366215475814_1_alg».proof.Proof.Accum
import proofs.«135766_j37366215475814_1_alg».proof.Proof.PayIdx
import proofs.«135766_j37366215475814_1_alg».proof.Proof.Blocks
import proofs.«135766_j37366215475814_1_alg».proof.Proof.HostTail
import proofs.«135766_j37366215475814_1_alg».proof.Proof.SumBridge

noncomputable section
open Idealize.ShloMosaic Idealize.ShloMosaic.TcCoe Idealize.SL.Sem Idealize.ShloMosaic.ValueIdx
open Idealize.ShloMosaic.Pipeline (Dat)

namespace Cert.KernelIdeal.Val
open Cert.KernelIdeal Cert.KernelIdeal.Gen Cert.Pnu

variable (m : (ℓ : Loc nD τ sig) → Buf (Elt Ideal) ℓ)

/-- The flat position of row `r`, lane `l` of row block `4p + k`. -/
def pos (p : Fin 2) (k : Fin 4) (r : Fin 16384) (l : Fin 128) : SN.Idx :=
  ix1 ⟨((4 * p.val + k.val) * 16384 + r.val) * 128 + l.val, by
    have := p.isLt; have := k.isLt; have := r.isLt; have := l.isLt; omega⟩

theorem pos_val (p : Fin 2) (k : Fin 4) (r : Fin 16384) (l : Fin 128) :
    ((pos p k r l) 0).val = ((4 * p.val + k.val) * 16384 + r.val) * 128 + l.val := rfl

/-- Summand `j` summed down lane `l` of row block `4p + k`, over the flat arguments. -/
def lsum (Y : SN.Idx → EReal) (T : SN.Idx → BitVec 32) (j : Fin 8) (p : Fin 2) (k : Fin 4) (l : Fin 128) : EReal :=
  ∑ r : Fin 16384, term j (Y (pos p k r l)) (T (pos p k r l))

/-- Half `p`'s four lane sums added in point order from zero. -/
def gval (Y : SN.Idx → EReal) (T : SN.Idx → BitVec 32) (p : Fin 2) (j : Fin 8) (l : Fin 128) : EReal :=
  (((zf + lsum Y T j p 0 l) + lsum Y T j p 1 l) + lsum Y T j p 2 l) + lsum Y T j p 3 l

/-- What the result array ends holding. -/
def G (c : Dev nD) : Buf (Elt Ideal) ((c : Thread nD τ).loc main_v2) := fun i =>
  gval (m ((c : Thread nD τ).loc main_arg0)) (m ((c : Thread nD τ).loc main_arg1)) (i 0) (i 1) (i 2)

/-- A point's lane sum over its two blocks is the lane sum over the flat arguments. -/
theorem blk_lsum (c : Dev nD) (t : Fin cfg0.N) (p : Fin 2) (k : Fin 4) (ht : t.val = 4 * p.val + k.val) (j : Fin 8) (l : Fin 128) :
    ∑ r : Fin 16384, term j (yblk m c t (ix2 r l)) (tblk m c t (ix2 r l))
      = lsum (m ((c : Thread nD τ).loc main_arg0)) (m ((c : Thread nD τ).loc main_arg1)) j p k l :=
  Finset.sum_congr rfl fun r _ => congrArg₂ (term j)
    (iblk0_apply m c t r l (pos p k r l) (by rw [pos_val, ht]))
    (iblk1_apply m c t r l (pos p k r l) (by rw [pos_val, ht]))

/-- The accumulator after the last point of half `p`, at row `j`, lane `l`. -/
theorem acc_flush (c : Dev nD) (p : Fin 2) (h : 4 * p.val + 2 + 1 < cfg0.N) (j : Fin 8) (l : Fin 128) :
    accAt m c (4 * p.val + 2 + 1) h (ix2 j l)
      = gval (m ((c : Thread nD τ).loc main_arg0)) (m ((c : Thread nD τ).loc main_arg1)) p j l := by
  have hN : cfg0.N = 8 := N_0
  have hp := p.isLt
  have h2 : 4 * p.val + 1 + 1 < cfg0.N := by omega
  have h1 : 4 * p.val + 0 + 1 < cfg0.N := by omega
  have h0 : 4 * p.val + 0 < cfg0.N := by omega
  rw [accAt_cont m c (4 * p.val + 2) h (by omega), step_apply,
    accAt_cont m c (4 * p.val + 1) h2 (by omega), step_apply,
    accAt_cont m c (4 * p.val + 0) h1 (by omega), step_apply,
    accAt_reset m c (4 * p.val + 0) h0 (by omega), step_apply, pay3_apply,
    blk_lsum m c ⟨4 * p.val + 2 + 1, h⟩ p 3 (by show 4 * p.val + 2 + 1 = 4 * p.val + 3; omega),
    blk_lsum m c ⟨4 * p.val + 1 + 1, h2⟩ p 2 (by show 4 * p.val + 1 + 1 = 4 * p.val + 2; omega),
    blk_lsum m c ⟨4 * p.val + 0 + 1, h1⟩ p 1 (by show 4 * p.val + 0 + 1 = 4 * p.val + 1; omega),
    blk_lsum m c ⟨4 * p.val + 0, h0⟩ p 0 (by show 4 * p.val + 0 = 4 * p.val + 0; omega)]
  rfl

/-- The output block's copy drops nothing: a [8,128] array under a leading unit axis. -/
theorem pay2_apply (v : Vec Ideal S8x128 .f32) (j : Fin 8) (l : Fin 128) : k0_pay2 (F := Ideal) v (ix3 0 j l) = v (ix2 j l) := by
  unfold k0_pay2
  exact shapeCast_apply _ _ (ix3 0 j l) (ix2 j l) (by
    rw [Shape.rowMajor_val_three, Shape.rowMajor_val_two]
    show j.val * 128 + l.val = (0 * 8 + j.val) * 128 + l.val
    omega)

/-- At the last point of half `p` the output block holds row `p` of `G`. -/
theorem out_flush (c : Dev nD) (t : Fin cfg0.N) (p : Fin 2) (ht : t.val = 4 * p.val + 3) (j : Fin 8) (l : Fin 128) :
    ((outsAt0 m c t.val t.isLt).1 : Vec Ideal S1x8x128 .f32) (ix3 0 j l) = G m c (ix3 p j l) := by
  obtain ⟨n, hn⟩ := t
  have hn' : n = 4 * p.val + 2 + 1 := ht
  subst hn'
  rw [outsAt_fst m c (4 * p.val + 2) hn (by omega)]
  exact (pay2_apply _ j l).trans (acc_flush m c p hn j l)

/-- The result array. -/
theorem final (c : Dev nD) : (dats m 0 c).arrAt 2 cfg0.N = G m c :=
  final2 m c (G m c) (out_flush m c)

/-- The ordered chain of four is their sum. -/
theorem chain4 (a : Fin 4 → EReal) : (((zf + a 0) + a 1) + a 2) + a 3 = ∑ k : Fin 4, a k := by
  rw [Fin.sum_univ_four, show zf = (0 : EReal) from Ideal.ofBits_zero_f32, zero_add]

/-- The host's total of row `j` of `G` is the total of summand `j` over every element. -/
theorem ksum_G (c : Dev nD) (j : Fin 8) :
    ksum (G m c) j = total j (m ((c : Thread nD τ).loc main_arg0)) (m ((c : Thread nD τ).loc main_arg1)) := by
  unfold ksum total
  refine congrArg (fun z : EReal => zf + z) ?_
  rw [← sum_regroup (fun i => term j (m ((c : Thread nD τ).loc main_arg0) i) (m ((c : Thread nD τ).loc main_arg1) i)) pos pos_val]
  refine Finset.sum_congr rfl fun l _ => ?_
  rw [show zf = (0 : EReal) from Ideal.ofBits_zero_f32, zero_add]
  refine Finset.sum_congr rfl fun p _ => ?_
  show gval _ _ p j l = _
  unfold gval
  exact chain4 fun k => lsum (m ((c : Thread nD τ).loc main_arg0)) (m ((c : Thread nD τ).loc main_arg1)) j p k l

/-- The kernel's scalar result is the specification's function of the arguments. -/
theorem kernel_value (c : Dev nD) :
    Pipeline.afterTail₀ cfgs (dats m) 0 (V0 m) [hostOps1] c main_v40
      = fun _ => spec (m ((c : Thread nD τ).loc main_arg0)) (m ((c : Thread nD τ).loc main_arg1)) (m ((c : Thread nD τ).loc main_arg2)) := by
  rw [tail_value m c (G m c) (final m c)]
  funext _
  unfold spec
  rw [show ksum (G m c) = fun j => total j (m ((c : Thread nD τ).loc main_arg0)) (m ((c : Thread nD τ).loc main_arg1)) from
    funext (ksum_G m c)]

variable (ρ : Dev nD → PrngReg)

/-- The run, read: the result at the specification's value, the three arguments unchanged. -/
theorem run : θ_run defs (onTc (τ := τ) (main (F := Ideal))) ⟨m, fun _ => 0, ρ⟩ fun r => ∀ c : Dev nD,
      r.2.mem ((c : Thread nD τ).loc main_v40)
        = (fun _ => spec (m ((c : Thread nD τ).loc main_arg0)) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v40 (Pipeline.mem_restRefs_of main_v40 (by decide) (by decide))).trans (kernel_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Val
end
-- ==== Proof.RefSide.lean ====
import proofs.«135766_j37366215475814_1_alg».proof.Proof.Gen.ReferenceIdeal.Run
import proofs.«135766_j37366215475814_1_alg».proof.Proof.Spec
import Idealize.ShloMosaic.Lib.Pipeline.Value
import Idealize.ShloMosaic.Lib.IdealHost

noncomputable section
open Idealize.ShloMosaic Idealize.ShloMosaic.TcCoe Idealize.SL.Sem Idealize.ShloMosaic.ValueIdx

namespace Cert.ReferenceIdeal.RefValue
open Cert.ReferenceIdeal Cert.ReferenceIdeal.Gen Cert.Pnu

variable (m : (ℓ : Loc nD τ sig) → Buf (Elt Ideal) ℓ)

/-! ## The two class priors: a one-element slice of the pair, reshaped to a scalar -/

section Priors
variable (P : S2.Idx → EReal)

/-- The slice at offset 0 of a length-2 array, viewed as a scalar, is the array's element 0: the scalar's
    row-major position is 0, which is that of the slice's only index, and the slice reads offset + 0. -/
theorem slice0 (j : S_.Idx) :
    shapeCast S_ (extractStridedSlice S1 ![0] P slices_S2_S1_0) shapeCasts_S1_S_ j = P (ix1 0) := by
  rw [shapeCast_apply _ shapeCasts_S1_S_ j (ix1 (0 : Fin 1)) (by
    rw [Shape.rowMajor_val_one]; exact (Shape.rowMajorPi_zero _ j).symm)]
  exact extractStridedSlice_apply ![0] P slices_S2_S1_0 (ix1 (0 : Fin 1)) (ix1 (0 : Fin 2)) (fun a => by
    match a with | ⟨0, _⟩ => rfl)

/-- The slice at offset 1 likewise is the array's element 1. -/
theorem slice1 (j : S_.Idx) :
    shapeCast S_ (extractStridedSlice S1 ![1] P slices_S2_S1_1) shapeCasts_S1_S_ j = P (ix1 1) := by
  rw [shapeCast_apply _ shapeCasts_S1_S_ j (ix1 (0 : Fin 1)) (by
    rw [Shape.rowMajor_val_one]; exact (Shape.rowMajorPi_zero _ j).symm)]
  exact extractStridedSlice_apply ![1] P slices_S2_S1_1 (ix1 (0 : Fin 1)) (ix1 (1 : Fin 2)) (fun a => by
    match a with | ⟨0, _⟩ => rfl)

end Priors

/-! ## The seven totals

Each is a reduction of a length-16777216 array to rank 0 from the zero literal: the zero plus the sum over every
element (the result shape has no axis, so every element reduces to its one index). Under the sum the array at an
element is the summand of the specification: the conversion of the label is its integer value as a real, the
broadcast constants are their words, negation is `-`, the absolute value is `max t (-t)`, the quotient is the
ideal division, all by unfolding. -/

section Totals
variable (Y : S16777216.Idx → EReal) (T : S16777216.Idx → BitVec 32)

/-- The zero and the one broadcast along the array. -/
local notation "bz" => broadcastInDim (α := Ideal FTy.f32) S16777216 ![] bcast_S_S16777216 (constant S_ FTy.f32 0x00000000#32)
local notation "b1" => broadcastInDim (α := Ideal FTy.f32) S16777216 ![] bcast_S_S16777216 (constant S_ FTy.f32 0x3F800000#32)
local notation "cz" => constant (F := Ideal) S_ FTy.f32 0x00000000#32

/-- Total 0: the positive mask `max t 0`. -/
theorem red0 (j : S_.Idx) :
    Host.reduceAdd (maximumf (sitofp .f32 T) bz) cz reducesTo_S16777216_S_d0 h_S_ j = total 0 Y T := by
  rw [hostReduceAdd_apply, Ideal.hostReduceAdd_total _ (fun b => b.elim0), constant_apply]
  unfold total
  exact congrArg (zf + ·) (Finset.sum_congr rfl fun i _ => rfl)

/-- Total 1: the negative mask `max (-t) 0`. -/
theorem red1 (j : S_.Idx) :
    Host.reduceAdd (maximumf (Host.negf (sitofp .f32 T)) bz) cz reducesTo_S16777216_S_d0 h_S_ j = total 1 Y T := by
  rw [hostReduceAdd_apply, Ideal.hostReduceAdd_total _ (fun b => b.elim0), constant_apply]
  unfold total
  exact congrArg (zf + ·) (Finset.sum_congr rfl fun i _ => rfl)

/-- Total 2: the unlabelled mask `1 - |t|`. -/
theorem red2 (j : S_.Idx) :
    Host.reduceAdd (subf b1 (Host.absf (sitofp .f32 T))) cz reducesTo_S16777216_S_d0 h_S_ j = total 2 Y T := by
  rw [hostReduceAdd_apply, Ideal.hostReduceAdd_total _ (fun b => b.elim0), constant_apply]
  unfold total
  exact congrArg (zf + ·) (Finset.sum_congr rfl fun i _ => rfl)

/-- Total 3: positive mask times `σ(-y) = 1 / (1 + e^(-(-y)))`. -/
theorem red3 (j : S_.Idx) :
    Host.reduceAdd (mulf (maximumf (sitofp .f32 T) bz) (Host.divf b1 (addf b1 (Host.exp (Host.negf (Host.negf Y))))))
      cz reducesTo_S16777216_S_d0 h_S_ j = total 3 Y T := by
  rw [hostReduceAdd_apply, Ideal.hostReduceAdd_total _ (fun b => b.elim0), constant_apply]
  unfold total
  exact congrArg (zf + ·) (Finset.sum_congr rfl fun i _ => rfl)

/-- Total 4: positive mask times `σ(y) = 1 / (1 + e^(-y))`. -/
theorem red4 (j : S_.Idx) :
    Host.reduceAdd (mulf (maximumf (sitofp .f32 T) bz) (Host.divf b1 (addf b1 (Host.exp (Host.negf Y)))))
      cz reducesTo_S16777216_S_d0 h_S_ j = total 4 Y T := by
  rw [hostReduceAdd_apply, Ideal.hostReduceAdd_total _ (fun b => b.elim0), constant_apply]
  unfold total
  exact congrArg (zf + ·) (Finset.sum_congr rfl fun i _ => rfl)

/-- Total 5: negative mask times `σ(y)`. -/
theorem red5 (j : S_.Idx) :
    Host.reduceAdd (mulf (maximumf (Host.negf (sitofp .f32 T)) bz) (Host.divf b1 (addf b1 (Host.exp (Host.negf Y)))))
      cz reducesTo_S16777216_S_d0 h_S_ j = total 5 Y T := by
  rw [hostReduceAdd_apply, Ideal.hostReduceAdd_total _ (fun b => b.elim0), constant_apply]
  unfold total
  exact congrArg (zf + ·) (Finset.sum_congr rfl fun i _ => rfl)

/-- Total 6: unlabelled mask times `σ(y)`. -/
theorem red6 (j : S_.Idx) :
    Host.reduceAdd (mulf (subf b1 (Host.absf (sitofp .f32 T))) (Host.divf b1 (addf b1 (Host.exp (Host.negf Y)))))
      cz reducesTo_S16777216_S_d0 h_S_ j = total 6 Y T := by
  rw [hostReduceAdd_apply, Ideal.hostReduceAdd_total _ (fun b => b.elim0), constant_apply]
  unfold total
  exact congrArg (zf + ·) (Finset.sum_congr rfl fun i _ => rfl)

end Totals

/-! ## The reductions and slices as whole scalars

A rank-0 array is a constant function of its one index; the seven totals and the two priors are stated so. -/

section Whole
variable (Y : S16777216.Idx → EReal) (T : S16777216.Idx → BitVec 32) (P : S2.Idx → EReal)

theorem red0f : (Host.reduceAdd (maximumf (sitofp .f32 T) (broadcastInDim S16777216 ![] bcast_S_S16777216 (constant S_ .f32 0x00000000#32))) (constant S_ .f32 0x00000000#32) reducesTo_S16777216_S_d0 h_S_ : FVec Ideal S_ .f32) = fun _ => total 0 Y T := funext (red0 Y T)
theorem red1f : (Host.reduceAdd (maximumf (Host.negf (sitofp .f32 T)) (broadcastInDim S16777216 ![] bcast_S_S16777216 (constant S_ .f32 0x00000000#32))) (constant S_ .f32 0x00000000#32) reducesTo_S16777216_S_d0 h_S_ : FVec Ideal S_ .f32) = fun _ => total 1 Y T := funext (red1 Y T)
theorem red2f : (Host.reduceAdd (subf (broadcastInDim S16777216 ![] bcast_S_S16777216 (constant S_ .f32 0x3F800000#32)) (Host.absf (sitofp .f32 T))) (constant S_ .f32 0x00000000#32) reducesTo_S16777216_S_d0 h_S_ : FVec Ideal S_ .f32) = fun _ => total 2 Y T := funext (red2 Y T)
theorem red3f : (Host.reduceAdd (mulf (maximumf (sitofp .f32 T) (broadcastInDim S16777216 ![] bcast_S_S16777216 (constant S_ .f32 0x00000000#32))) (Host.divf (broadcastInDim S16777216 ![] bcast_S_S16777216 (constant S_ .f32 0x3F800000#32)) (addf (broadcastInDim S16777216 ![] bcast_S_S16777216 (constant S_ .f32 0x3F800000#32)) (Host.exp (Host.negf (Host.negf Y)))))) (constant S_ .f32 0x00000000#32) reducesTo_S16777216_S_d0 h_S_ : FVec Ideal S_ .f32) = fun _ => total 3 Y T := funext (red3 Y T)
theorem red4f : (Host.reduceAdd (mulf (maximumf (sitofp .f32 T) (broadcastInDim S16777216 ![] bcast_S_S16777216 (constant S_ .f32 0x00000000#32))) (Host.divf (broadcastInDim S16777216 ![] bcast_S_S16777216 (constant S_ .f32 0x3F800000#32)) (addf (broadcastInDim S16777216 ![] bcast_S_S16777216 (constant S_ .f32 0x3F800000#32)) (Host.exp (Host.negf Y))))) (constant S_ .f32 0x00000000#32) reducesTo_S16777216_S_d0 h_S_ : FVec Ideal S_ .f32) = fun _ => total 4 Y T := funext (red4 Y T)
theorem red5f : (Host.reduceAdd (mulf (maximumf (Host.negf (sitofp .f32 T)) (broadcastInDim S16777216 ![] bcast_S_S16777216 (constant S_ .f32 0x00000000#32))) (Host.divf (broadcastInDim S16777216 ![] bcast_S_S16777216 (constant S_ .f32 0x3F800000#32)) (addf (broadcastInDim S16777216 ![] bcast_S_S16777216 (constant S_ .f32 0x3F800000#32)) (Host.exp (Host.negf Y))))) (constant S_ .f32 0x00000000#32) reducesTo_S16777216_S_d0 h_S_ : FVec Ideal S_ .f32) = fun _ => total 5 Y T := funext (red5 Y T)
theorem red6f : (Host.reduceAdd (mulf (subf (broadcastInDim S16777216 ![] bcast_S_S16777216 (constant S_ .f32 0x3F800000#32)) (Host.absf (sitofp .f32 T))) (Host.divf (broadcastInDim S16777216 ![] bcast_S_S16777216 (constant S_ .f32 0x3F800000#32)) (addf (broadcastInDim S16777216 ![] bcast_S_S16777216 (constant S_ .f32 0x3F800000#32)) (Host.exp (Host.negf Y))))) (constant S_ .f32 0x00000000#32) reducesTo_S16777216_S_d0 h_S_ : FVec Ideal S_ .f32) = fun _ => total 6 Y T := funext (red6 Y T)
theorem slice0f : shapeCast S_ (extractStridedSlice S1 ![0] P slices_S2_S1_0) shapeCasts_S1_S_ = fun _ => P (ix1 0) :=
  funext (slice0 P)
theorem slice1f : shapeCast S_ (extractStridedSlice S1 ![1] P slices_S2_S1_1) shapeCasts_S1_S_ = fun _ => P (ix1 1) :=
  funext (slice1 P)

end Whole

/-! ## The scalar tail

Over nine extended reals standing for the two priors and the seven totals, the elementwise scalar operations
read at the one index are the extended reals' own, so the tail is the specification's combination. -/

theorem tail_eq (p0 p1 t0 t1 t2 t3 t4 t5 t6 : EReal) (i : S_.Idx) :
    ((addf (mulf (constant S_ .f32 0x3F000000#32) (addf (mulf (fun _ => p0) (Host.divf (fun _ => t3) (maximumf (constant S_ .f32 0x3F800000#32) (fun _ => t0)))) (mulf (fun _ => p1) (Host.divf (fun _ => t5) (maximumf (constant S_ .f32 0x3F800000#32) (fun _ => t1)))))) (mulf (constant S_ .f32 0x3F000000#32) (addf (mulf (fun _ => p0) (subf (Host.divf (fun _ => t3) (maximumf (constant S_ .f32 0x3F800000#32) (fun _ => t0))) (Host.divf (fun _ => t4) (maximumf (constant S_ .f32 0x3F800000#32) (fun _ => t0))))) (Host.divf (fun _ => t6) (maximumf (constant S_ .f32 0x3F800000#32) (fun _ => t2)))))) : FVec Ideal S_ .f32) i
      = halff * (p0 * Ideal.div t3 (max onef t0) + p1 * Ideal.div t5 (max onef t1))
        + halff * (p0 * (Ideal.div t3 (max onef t0) - Ideal.div t4 (max onef t0)) + Ideal.div t6 (max onef t2)) :=
  rfl

/-! ## The composed term over three arrays -/

section Composed
variable (Y : S16777216.Idx → EReal) (T : S16777216.Idx → BitVec 32) (P : S2.Idx → EReal)

/-- The reference's composed term of three arrays, read at the scalar's one index, is the specification: each
    reduction is replaced by its total and each reshaped slice by its prior, and the scalar tail is read. -/
theorem value_eq (i : S_.Idx) :
    ((addf (mulf (constant S_ .f32 0x3F000000#32) (addf (mulf (shapeCast _ (extractStridedSlice S1 ![0] P slices_S2_S1_0) shapeCasts_S1_S_) (Host.divf (Host.reduceAdd (mulf (maximumf (sitofp .f32 T) (broadcastInDim S16777216 ![] bcast_S_S16777216 (constant S_ .f32 0x00000000#32))) (Host.divf (broadcastInDim S16777216 ![] bcast_S_S16777216 (constant S_ .f32 0x3F800000#32)) (addf (broadcastInDim S16777216 ![] bcast_S_S16777216 (constant S_ .f32 0x3F800000#32)) (Host.exp (Host.negf (Host.negf Y)))))) (constant S_ .f32 0x00000000#32) reducesTo_S16777216_S_d0 h_S_) (maximumf (constant S_ .f32 0x3F800000#32) (Host.reduceAdd (maximumf (sitofp .f32 T) (broadcastInDim S16777216 ![] bcast_S_S16777216 (constant S_ .f32 0x00000000#32))) (constant S_ .f32 0x00000000#32) reducesTo_S16777216_S_d0 h_S_)))) (mulf (shapeCast _ (extractStridedSlice S1 ![1] P slices_S2_S1_1) shapeCasts_S1_S_) (Host.divf (Host.reduceAdd (mulf (maximumf (Host.negf (sitofp .f32 T)) (broadcastInDim S16777216 ![] bcast_S_S16777216 (constant S_ .f32 0x00000000#32))) (Host.divf (broadcastInDim S16777216 ![] bcast_S_S16777216 (constant S_ .f32 0x3F800000#32)) (addf (broadcastInDim S16777216 ![] bcast_S_S16777216 (constant S_ .f32 0x3F800000#32)) (Host.exp (Host.negf Y))))) (constant S_ .f32 0x00000000#32) reducesTo_S16777216_S_d0 h_S_) (maximumf (constant S_ .f32 0x3F800000#32) (Host.reduceAdd (maximumf (Host.negf (sitofp .f32 T)) (broadcastInDim S16777216 ![] bcast_S_S16777216 (constant S_ .f32 0x00000000#32))) (constant S_ .f32 0x00000000#32) reducesTo_S16777216_S_d0 h_S_)))))) (mulf (constant S_ .f32 0x3F000000#32) (addf (mulf (shapeCast _ (extractStridedSlice S1 ![0] P slices_S2_S1_0) shapeCasts_S1_S_) (subf (Host.divf (Host.reduceAdd (mulf (maximumf (sitofp .f32 T) (broadcastInDim S16777216 ![] bcast_S_S16777216 (constant S_ .f32 0x00000000#32))) (Host.divf (broadcastInDim S16777216 ![] bcast_S_S16777216 (constant S_ .f32 0x3F800000#32)) (addf (broadcastInDim S16777216 ![] bcast_S_S16777216 (constant S_ .f32 0x3F800000#32)) (Host.exp (Host.negf (Host.negf Y)))))) (constant S_ .f32 0x00000000#32) reducesTo_S16777216_S_d0 h_S_) (maximumf (constant S_ .f32 0x3F800000#32) (Host.reduceAdd (maximumf (sitofp .f32 T) (broadcastInDim S16777216 ![] bcast_S_S16777216 (constant S_ .f32 0x00000000#32))) (constant S_ .f32 0x00000000#32) reducesTo_S16777216_S_d0 h_S_))) (Host.divf (Host.reduceAdd (mulf (maximumf (sitofp .f32 T) (broadcastInDim S16777216 ![] bcast_S_S16777216 (constant S_ .f32 0x00000000#32))) (Host.divf (broadcastInDim S16777216 ![] bcast_S_S16777216 (constant S_ .f32 0x3F800000#32)) (addf (broadcastInDim S16777216 ![] bcast_S_S16777216 (constant S_ .f32 0x3F800000#32)) (Host.exp (Host.negf Y))))) (constant S_ .f32 0x00000000#32) reducesTo_S16777216_S_d0 h_S_) (maximumf (constant S_ .f32 0x3F800000#32) (Host.reduceAdd (maximumf (sitofp .f32 T) (broadcastInDim S16777216 ![] bcast_S_S16777216 (constant S_ .f32 0x00000000#32))) (constant S_ .f32 0x00000000#32) reducesTo_S16777216_S_d0 h_S_))))) (Host.divf (Host.reduceAdd (mulf (subf (broadcastInDim S16777216 ![] bcast_S_S16777216 (constant S_ .f32 0x3F800000#32)) (Host.absf (sitofp .f32 T))) (Host.divf (broadcastInDim S16777216 ![] bcast_S_S16777216 (constant S_ .f32 0x3F800000#32)) (addf (broadcastInDim S16777216 ![] bcast_S_S16777216 (constant S_ .f32 0x3F800000#32)) (Host.exp (Host.negf Y))))) (constant S_ .f32 0x00000000#32) reducesTo_S16777216_S_d0 h_S_) (maximumf (constant S_ .f32 0x3F800000#32) (Host.reduceAdd (subf (broadcastInDim S16777216 ![] bcast_S_S16777216 (constant S_ .f32 0x3F800000#32)) (Host.absf (sitofp .f32 T))) (constant S_ .f32 0x00000000#32) reducesTo_S16777216_S_d0 h_S_)))))) : FVec Ideal S_ .f32) i = spec Y T P := by
  rw [red3f Y T, red4f Y T, red5f Y T, red6f Y T, red0f Y T, red1f Y T, red2f Y T, slice0f P, slice1f P]
  unfold spec tailS
  exact tail_eq (P (ix1 0)) (P (ix1 1)) (total 0 Y T) (total 1 Y T) (total 2 Y T) (total 3 Y T) (total 4 Y T)
    (total 5 Y T) (total 6 Y T) i

end Composed

/-! ## The result -/

/-- The reference's result buffer is, at its one index, the specification of the three argument arrays: the
    result's term is the composed term above at the arguments' launch contents. -/
theorem ref_value (c : Dev nD) :
    Cert.ReferenceIdeal.Value.res_main_v54 (F := Ideal) m c
      = fun _ => spec (m ((c : Thread nD τ).loc main_arg0)) (m ((c : Thread nD τ).loc main_arg1)) (m ((c : Thread nD τ).loc main_arg2)) := by
  funext i
  unfold Cert.ReferenceIdeal.Value.res_main_v54
  exact value_eq (m ((c : Thread nD τ).loc main_arg0)) (m ((c : Thread nD τ).loc main_arg1))
    (m ((c : Thread nD τ).loc main_arg2)) i

end Cert.ReferenceIdeal.RefValue

end
-- ==== Proof.lean ====
/-
  The five claims for the positive–negative–unlabelled risk kernel against its jnp reference.

  Both programs take seven totals over all 16777216 elements — the three soft masks of the integer labels, and the
  masks' products with σ(±y) of the scores — and combine them with the two class priors by the same scalar formula.
  The kernel takes the totals in pieces (lane sums of [16384,128] row blocks, accumulated over the four steps of each
  half, then the halves and the lanes added on the host); the reference in one reduction each. Over the extended
  reals addition is commutative and associative, so regrouping changes nothing; the kernel's `0 - t` is `-t` and its
  single σ operation is the quotient `1 / (1 + e^(-x))` the reference spells out. Both results are therefore the one
  function `Cert.Pnu.spec` of the argument arrays. No finiteness is used: the precondition is never opened.

  The frames of the two kernel programs are the generated ones; the reference's is its generated run with the result
  dropped. The idealization rewrote no operation, so `preserves` is `True`.
-/
import proofs.«135766_j37366215475814_1_alg».proof.Defs
import proofs.«135766_j37366215475814_1_alg».proof.Proof.Gen.Kernel
import proofs.«135766_j37366215475814_1_alg».proof.Proof.Gen.Kernel.Skeleton
import proofs.«135766_j37366215475814_1_alg».proof.Proof.Gen.Kernel.Launch
import proofs.«135766_j37366215475814_1_alg».proof.Proof.Gen.Kernel.Points
import proofs.«135766_j37366215475814_1_alg».proof.Proof.Gen.Kernel.Frame
import proofs.«135766_j37366215475814_1_alg».proof.Proof.Gen.KernelIdeal
import proofs.«135766_j37366215475814_1_alg».proof.Proof.Gen.KernelIdeal.Skeleton
import proofs.«135766_j37366215475814_1_alg».proof.Proof.Gen.KernelIdeal.Launch
import proofs.«135766_j37366215475814_1_alg».proof.Proof.Gen.KernelIdeal.Points
import proofs.«135766_j37366215475814_1_alg».proof.Proof.Gen.KernelIdeal.Frame
import proofs.«135766_j37366215475814_1_alg».proof.Proof.Gen.ReferenceIdeal
import proofs.«135766_j37366215475814_1_alg».proof.Proof.Gen.ReferenceIdeal.Run
import proofs.«135766_j37366215475814_1_alg».proof.Proof.Gen.Pre_finite_inputs
import proofs.«135766_j37366215475814_1_alg».proof.Proof.KernelValue
import proofs.«135766_j37366215475814_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `spec` of arguments that agree. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.ref_value m' c, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
